-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S33554432, .f32⟩
  | .hbm, ⟨4, _⟩ => ⟨S262144x128, .f32⟩
  | .hbm, ⟨5, _⟩ => ⟨S1x1, .f32⟩
  | .hbm, ⟨6, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S33554432, .f32⟩
  | .hbm, ⟨4, _⟩ => ⟨S33554432, .i1⟩
  | .hbm, ⟨5, _⟩ => ⟨S_, .f32⟩
  | .hbm, ⟨6, _⟩ => ⟨S33554432, .f32⟩
  | .hbm, ⟨7, _⟩ => ⟨S33554432, .i1⟩
  | .hbm, ⟨8, _⟩ => ⟨S33554432, .i1⟩
  | .hbm, ⟨9, _⟩ => ⟨S_, .i32⟩
  | .hbm, ⟨10, _⟩ => ⟨S33554432, .i32⟩
  | .hbm, ⟨11, _⟩ => ⟨S33554432, .i1⟩
  | .hbm, ⟨12, _⟩ => ⟨S33554432, .i1⟩
  | .hbm, ⟨13, _⟩ => ⟨S_, .f32⟩
  | .hbm, ⟨14, _⟩ => ⟨S_, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S33554432, .f32⟩
  | .hbm, ⟨19, _⟩ => ⟨S33554432, .f32⟩
  | .hbm, ⟨20, _⟩ => ⟨S33554432, .f32⟩
  | .hbm, ⟨21, _⟩ => ⟨S33554432, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Pieces.lean ====
/- What each control case of the kernel body leaves in the one-element accumulator, as the payloads of its stores:
   the first grid point stores the zero, reads it back and stores the zero plus its block sum; a middle point stores the
   accumulator plus its block sum; the last point does the same, reads that back and stores it scaled. Each store covers the
   whole one-element buffer, so the buffer ends at the last store's payload, and a load after a store reads that store's
   payload. At any float instance. -/
import proofs.«138641_j73538430042130_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

theorem out_B (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (hc0 : ¬cond0_0 i) (hc1 : ¬cond0_1 i) (x0 x1 : Vec F S8192x128 .f32) (xo : Vec F S1x1 .f32) :
    out0_B_2 c i a1 h1 a2 h2 a3 h3 hc0 hc1 x0 x1 xo = k0_pay2 x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero hz]
  simp only [View.readAt_eq_ld, h1.read_unread, h2.read_unread, h3.read_unread, View.ld_unit_zero (S := S8192x128) hz,
    View.ld_unit_zero (S := S1x1) hz]

theorem out_A (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (hc0 : cond0_0 i) (hc1 : ¬cond0_1 i) (x0 x1 : Vec F S8192x128 .f32) :
    out0_A_2 c i a1 h1 a2 h2 a3 h3 hc0 hc1 x0 x1 = k0_pay2 x0 x1 k0_pay1 := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

theorem out_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (hc0 : ¬cond0_0 i) (hc1 : cond0_1 i) (x0 x1 : Vec F S8192x128 .f32) (xo : Vec F S1x1 .f32) :
    out0_C_2 c i a1 h1 a2 h2 a3 h3 hc0 hc1 x0 x1 xo = k0_pay3 (k0_pay2 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S8192x128) hz,
    View.ld_unit_zero (S := S1x1) hz]

end Cert.KernelIdeal.Pieces

end
-- ==== Proof.Summand.lean ====
/- The loss's arithmetic, apart from any program: the three float literals as reals; the summand
   `w · (x - t)²` with its weight window and label test; that testing the exactly converted target against `5.0` is testing the
   integer against `5`; that blocks × rows × lanes enumerate the flat positions `(8192 t + r) · 128 + l` once each, so a flat sum
   is the triple sum (in any commutative monoid: no finiteness); and that scaling by `2^-25` is dividing by `2^25` on the
   extended reals. -/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-! ## The literals, as extended reals -/

/-- The label `5.0` denotes the real `5`. -/
theorem ofBits_five : Ideal.ofBits .f32 0x40A00000#32 = ((5 : ℝ) : EReal) := by
  simp [Ideal.ofBits, Ideal.ieee, -EReal.coe_mul]; norm_num

/-- The element count `33554432.0 = 2^25`, the mean's divisor. -/
theorem ofBits_count : Ideal.ofBits .f32 0x4C000000#32 = ((33554432 : ℝ) : EReal) := by
  simp [Ideal.ofBits, Ideal.ieee, -EReal.coe_mul]; norm_num

/-- Its reciprocal `2^-25`, an exact binary fraction: the kernel's final scale. -/
theorem ofBits_inv_count : Ideal.ofBits .f32 0x33000000#32 = ((1 / 33554432 : ℝ) : EReal) := by
  simp [Ideal.ofBits, Ideal.ieee, -EReal.coe_mul]; norm_num

/-- Scaling by `2^-25` is dividing by `2^25`, on every extended real. -/
theorem scale_eq_div (s : EReal) :
    s * Ideal.ofBits .f32 0x33000000#32 = Ideal.div s (Ideal.ofBits .f32 0x4C000000#32) := by
  rw [ofBits_inv_count, ofBits_count, Ideal.div_coe (by norm_num : (33554432 : ℝ) ≠ 0)]

/-! ## The label test: on the converted target or on the integer -/

/-- An integer label converted exactly differs from `5.0` exactly when the integer differs from `5`. -/
theorem cmp_one_sitofp (t : BitVec 32) :
    Ideal.cmp .one (((t.toInt : ℝ)) : EReal) (Ideal.ofBits .f32 0x40A00000#32) = IntOp.cmpi .ne t 5#32 := by
  rw [ofBits_five]
  unfold Ideal.cmp IntOp.cmpi
  congr 1
  by_cases h : t = 5#32
  · subst h; simp
  · have hne : (((t.toInt : ℝ)) : EReal) ≠ ((5 : ℝ) : EReal) := by
      intro heq
      apply h
      have h5 : t.toInt = (5#32 : BitVec 32).toInt := by
        have : (t.toInt : ℝ) = 5 := EReal.coe_eq_coe_iff.mp heq
        have h' : t.toInt = 5 := by exact_mod_cast this
        rw [h']; rfl
      exact BitVec.eq_of_toInt_eq h5
    simp [hne, h]

/-! ## The summand -/

/-- The weighted squared difference at one element: weight `3` where `x` lies strictly inside `(4.5, 5.5)` and the
    label test's bit `b` is set, weight `1` elsewhere, times `(x - d)²`. -/
def wsq (x d : EReal) (b : BitVec 1) : EReal :=
  Scalar.select (IntOp.andi (IntOp.andi (Ideal.cmp .ogt x (Ideal.ofBits .f32 0x40900000#32))
      (Ideal.cmp .olt x (Ideal.ofBits .f32 0x40B00000#32))) b)
    (Ideal.ofBits .f32 0x40400000#32) (Ideal.ofBits .f32 0x3F800000#32) * (x - d) * (x - d)

/-- The summand of input `x` and integer target `t`: the target converted exactly, the label test on the integer. -/
def term (x : EReal) (t : BitVec 32) : EReal :=
  wsq x (((t.toInt : ℝ)) : EReal) (IntOp.cmpi .ne t 5#32)

/-- Testing the converted target against `5.0` gives the same summand. -/
theorem wsq_sitofp (x : EReal) (t : BitVec 32) :
    wsq x (((t.toInt : ℝ)) : EReal) (Ideal.cmp .one (((t.toInt : ℝ)) : EReal) (Ideal.ofBits .f32 0x40A00000#32)) = term x t := by
  rw [cmp_one_sitofp]; rfl

/-! ## Re-indexing the total sum by block, row and lane -/

/-- The flat position of lane `l` of row `r` of block `t`: `(8192 t + r) · 128 + l`. -/
def flat (t : Fin 32) (r : Fin 8192) (l : Fin 128) : (⟨1, ![33554432]⟩ : Shape).Idx :=
  ix1 ⟨(t.val * 8192 + r.val) * 128 + l.val, by have := t.isLt; have := r.isLt; have := l.isLt; omega⟩

/-- One-coordinate indices are the numbers below the extent. -/
def idx1Equiv : (⟨1, ![33554432]⟩ : Shape).Idx ≃ Fin 33554432 where
  toFun i := i 0
  invFun k := ix1 k
  left_inv i := (eq_ix1 i).symm
  right_inv _ := rfl

/-- Blocks × rows × lanes enumerate the flat positions. -/
def blockEquiv : Fin 32 × Fin 8192 × Fin 128 ≃ (⟨1, ![33554432]⟩ : Shape).Idx where
  toFun p := flat p.1 p.2.1 p.2.2
  invFun i := (⟨(i 0).val / 1048576, by have h : (i 0).val < 33554432 := (i 0).isLt; omega⟩,
    ⟨(i 0).val / 128 % 8192, Nat.mod_lt _ (by norm_num)⟩, ⟨(i 0).val % 128, Nat.mod_lt _ (by norm_num)⟩)
  left_inv p := by
    obtain ⟨t, r, l⟩ := p
    have := t.isLt; have := r.isLt; have := l.isLt
    refine Prod.ext (Fin.ext ?_) (Prod.ext (Fin.ext ?_) (Fin.ext ?_))
    · show ((t.val * 8192 + r.val) * 128 + l.val) / 1048576 = t.val; omega
    · show ((t.val * 8192 + r.val) * 128 + l.val) / 128 % 8192 = r.val; omega
    · show ((t.val * 8192 + r.val) * 128 + l.val) % 128 = l.val; omega
  right_inv i := by
    have h : (i 0).val < 33554432 := (i 0).isLt
    refine Eq.trans ?_ (eq_ix1 i).symm
    show ix1 _ = ix1 _
    refine congrArg ix1 (Fin.ext ?_)
    show ((i 0).val / 1048576 * 8192 + (i 0).val / 128 % 8192) * 128 + (i 0).val % 128 = (i 0).val
    omega

/-- A sum over every flat position is the sum over blocks of the sums over rows of the sums over lanes. -/
theorem sum_flat {M : Type*} [AddCommMonoid M] (g : (⟨1, ![33554432]⟩ : Shape).Idx → M) :
    ∑ i, g i = ∑ t : Fin 32, ∑ r : Fin 8192, ∑ l : Fin 128, g (flat t r l) := by
  rw [← Equiv.sum_comp blockEquiv g, Fintype.sum_prod_type]
  refine Finset.sum_congr rfl fun t _ => ?_
  rw [Fintype.sum_prod_type]
  rfl

end Cert.Loss

end
-- ==== Proof.Payload.lean ====
/- The body's three payloads read at the accumulator's one index, over the extended reals: the zero; the running total plus
   the sum over the block's 8192 rows of the sums over the row's 128 lanes of the summand (a lane reduction into the zero is
   the plain lane sum, the column of row sums reduced likewise; the re-layouts between them keep row-major position); and the
   total times `2^-25`. -/
import proofs.«138641_j73538430042130_1_alg».proof.Proof.Gen.KernelIdeal.Skeleton
import proofs.«138641_j73538430042130_1_alg».proof.Proof.Summand
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.Loss

/-- Inserting lane `l` into the row index `r` gives the element `(r, l)`. -/
theorem lift_lane (h : S8192x128.Reduces [1] S8192) (r : Fin 8192) (l : Fin 128) :
    h.lift (ix1 r) l = ix2 r l := by
  funext a
  match a with
  | ⟨0, _⟩ => exact Fin.ext rfl
  | ⟨1, _⟩ => exact Fin.ext rfl

/-- Inserting row `r` into the one index of the column total gives `(r, 0)`. -/
theorem lift_row (h : S8192x1.Reduces [0] S1) (j : S1.Idx) (r : Fin 8192) :
    h.lift j r = ix2 r 0 := by
  funext a
  match a with
  | ⟨0, _⟩ => exact Fin.ext rfl
  | ⟨1, _⟩ => exact Fin.ext (by have h1 : (h.lift j r 1).val < 1 := (h.lift j r 1).isLt; show (h.lift j r 1).val = 0; omega)

/-- A row's lane sum. -/
theorem rowsum (v : FVec Ideal S8192x128 .f32) (r : Fin 8192) :
    multiReduction .add [1] S8192 v 0x00000000#32 reduces_S8192x128_S8192 (.inl rfl) rfl (ix1 r)
      = ∑ l : Fin 128, v (ix2 r l) := by
  refine (Ideal.multiReduction_add_single v 0x00000000#32 reduces_S8192x128_S8192 (.inl rfl) rfl (ix1 r)).trans ?_
  exact Finset.sum_congr rfl fun l _ => congrArg v (lift_lane _ r l)

/-- The column of row sums, summed. -/
theorem colsum (v : FVec Ideal S8192x1 .f32) (j : S1.Idx) :
    multiReduction .add [0] S1 v 0x00000000#32 reduces_S8192x1_S1 (.inl rfl) rfl j
      = ∑ r : Fin 8192, v (ix2 r 0) := by
  refine (Ideal.multiReduction_add_single v 0x00000000#32 reduces_S8192x1_S1 (.inl rfl) rfl j).trans ?_
  exact Finset.sum_congr rfl fun r _ => congrArg v (lift_row _ j r)

/-- The row sums laid out as a column. -/
theorem cast_col (v : S8192.Idx → EReal) (r : Fin 8192) :
    shapeCast S8192x1 v shapeCasts_S8192_S8192x1 (ix2 r 0) = v (ix1 r) :=
  shapeCast_apply v _ (ix2 r 0) (ix1 r) (by
    rw [Shape.rowMajor_val_one, Shape.rowMajor_val_two]; show r.val = r.val * 1 + 0; omega)

/-- The total laid out as the one-element block. -/
theorem cast_one (v : S1.Idx → EReal) (j : S1x1.Idx) :
    shapeCast S1x1 v shapeCasts_S1_S1x1 j = v (ix1 0) :=
  shapeCast_apply v _ j (ix1 0) (by
    rw [Shape.rowMajor_val_one, Shape.rowMajor_val_two]
    have h0 : (j 0).val < 1 := (j 0).isLt
    have h1 : (j 1).val < 1 := (j 1).isLt
    show 0 = (j 0).val * 1 + (j 1).val; omega)

/-- The reset payload is the zero. -/
theorem pay1_apply (j : S1x1.Idx) : k0_pay1 (F := Ideal) j = 0 := Ideal.ofBits_zero_f32

/-- The final payload scales by `2^-25`. -/
theorem pay3_apply (v : Vec Ideal S1x1 .f32) (j : S1x1.Idx) :
    k0_pay3 (F := Ideal) v j = v j * Ideal.ofBits .f32 0x33000000#32 := by
  unfold k0_pay3
  rw [shapeCast_self]
  rfl

/-- The accumulating payload: the running total plus the block's sum, over rows and lanes, of the summand. -/
theorem pay2_apply (x0 x1 : Vec Ideal S8192x128 .f32) (xo : Vec Ideal S1x1 .f32) (j : S1x1.Idx) :
    k0_pay2 (F := Ideal) x0 x1 xo j
      = xo j + ∑ r : Fin 8192, ∑ l : Fin 128,
          wsq (x0 (ix2 r l)) (x1 (ix2 r l)) (Ideal.cmp .one (x1 (ix2 r l)) (Ideal.ofBits .f32 0x40A00000#32)) := by
  unfold k0_pay2
  simp only [shapeCast_self]
  refine congrArg (xo j + ·) ?_
  refine (cast_one _ j).trans ?_
  refine (colsum _ (ix1 0)).trans ?_
  refine Finset.sum_congr rfl fun r _ => ?_
  refine (cast_col _ r).trans ?_
  refine (rowsum _ r).trans ?_
  rfl

end Cert.KernelIdeal.Payload

end
-- ==== Proof.KernelValue.lean ====
/- The idealized kernel's result. The two windows' arrays are the input and the exactly converted target, each laid out as
   262144 rows of 128 lanes, so element `(r, l)` of block `t` is flat position `(8192 t + r) · 128 + l`. By induction on
   the grid point the accumulator holds, after point `n < 31`, the block sums of blocks `0 … n` added in order, and after point
   `31` the sum of all 32 block sums scaled by `2^-25`. The one write-back, at the last point, covers the one-element result
   array, and the closing host line re-lays it as the scalar result. -/
import proofs.«138641_j73538430042130_1_alg».proof.Proof.Gen.KernelIdeal.Frame
import proofs.«138641_j73538430042130_1_alg».proof.Proof.Pieces
import proofs.«138641_j73538430042130_1_alg».proof.Proof.Payload
import proofs.«138641_j73538430042130_1_alg».proof.Proof.Summand
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Loss

variable (m : (ℓ : Loc nD τ sig) → Buf (Elt Ideal) ℓ) (ρ : Dev nD → PrngReg)

/-- The float input and the integer target as launched. -/
abbrev xin (c : Dev nD) : S33554432.Idx → EReal := m ((c : Thread nD τ).loc main_arg0)
abbrev tin (c : Dev nD) : S33554432.Idx → BitVec 32 := m ((c : Thread nD τ).loc main_arg1)

/-! ## The arrays the region finds -/

/-- Window 0's array is the input laid out as 262144 rows of 128 lanes. -/
theorem V_rows (c : Dev nD) :
    (V m c main_v0 : S262144x128.Idx → EReal) = shapeCast S262144x128 (xin m c) shapeCasts_S33554432_S262144x128 := by
  show StableHlo.after hostOps0 (fun b => m (c, b)) (Proc.devRef .tc main_v0) = _
  after_results
  rfl

/-- Window 1's array is the target converted exactly, laid out the same way. -/
theorem V_labels (c : Dev nD) :
    (V m c main_v2 : S262144x128.Idx → EReal)
      = shapeCast S262144x128 (sitofp (F := Ideal) .f32 (tin m c)) shapeCasts_S33554432_S262144x128 := by
  show StableHlo.after hostOps0 (fun b => m (c, b)) (Proc.devRef .tc main_v2) = _
  after_results
  rfl

theorem idx_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem xblk_apply (c : Dev nD) (t : Fin cfg0.N) (r : Fin 8192) (l : Fin 128) :
    (iblk m c 0 t : Vec Ideal S8192x128 .f32) (ix2 r l) = xin m c (flat ⟨t.val, lt_of_lt_of_eq t.isLt N_0⟩ r l) := by
  unfold iblk
  rw [View.read_apply]
  show (V m c main_v0 : S262144x128.Idx → EReal) _ = _
  rw [V_rows]
  refine shapeCast_apply _ _ _ _ ?_
  rw [Shape.rowMajor_val_one, Shape.rowMajor_val_two]
  show (t.val * 8192 + r.val) * 128 + l.val
    = (win0_0.index t 0 * 8192 + 1 * r.val) * 128 + (win0_0.index t 1 * 128 + 1 * l.val)
  rw [(idx_rows t).1, (idx_rows t).2]
  omega

theorem idx_labels : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem tblk_apply (c : Dev nD) (t : Fin cfg0.N) (r : Fin 8192) (l : Fin 128) :
    (iblk m c 1 t : Vec Ideal S8192x128 .f32) (ix2 r l)
      = ((((tin m c (flat ⟨t.val, lt_of_lt_of_eq t.isLt N_0⟩ r l)).toInt : ℝ)) : EReal) := by
  unfold iblk
  rw [View.read_apply]
  show (V m c main_v2 : S262144x128.Idx → EReal) _ = _
  rw [V_labels]
  refine (shapeCast_apply _ _ _ (flat ⟨t.val, lt_of_lt_of_eq t.isLt N_0⟩ r l) ?_).trans rfl
  rw [Shape.rowMajor_val_one, Shape.rowMajor_val_two]
  show (t.val * 8192 + r.val) * 128 + l.val
    = (win0_1.index t 0 * 8192 + 1 * r.val) * 128 + (win0_1.index t 1 * 128 + 1 * l.val)
  rw [(idx_labels t).1, (idx_labels t).2]
  omega

/-! ## The running total -/

/-- The sum of the summand over block `t`'s rows and lanes. -/
def bsum (c : Dev nD) (t : Fin 32) : EReal :=
  ∑ r : Fin 8192, ∑ l : Fin 128, term (xin m c (flat t r l)) (tin m c (flat t r l))

/-- The block sums added in grid order, through block `n`. -/
def acc (c : Dev nD) : (n : ℕ) → n < 32 → EReal
  | 0, _ => bsum m c 0
  | n + 1, h => acc c n (Nat.lt_of_succ_lt h) + bsum m c ⟨n + 1, h⟩

/-- The running total is the sum of the first blocks' sums. -/
theorem acc_eq_sum (c : Dev nD) : ∀ (n : ℕ) (h : n < 32),
    acc m c n h = ∑ t : Fin (n + 1), bsum m c (Fin.castLE (Nat.succ_le_of_lt h) t)
  | 0, h => by
    rw [Fin.sum_univ_one]; rfl
  | n + 1, h => by
    rw [Fin.sum_univ_castSucc]
    show acc m c n _ + _ = _
    rw [acc_eq_sum c n (Nat.lt_of_succ_lt h)]
    rfl

/-- Through the last block it is the sum over every block. -/
theorem acc_last (c : Dev nD) : acc m c 31 (by decide) = ∑ t : Fin 32, bsum m c t := by
  rw [acc_eq_sum]
  exact Finset.sum_congr rfl fun t _ => congrArg (bsum m c) (Fin.ext rfl)

/-- What the body adds at point `t`: the summand over the two windows' blocks is block `t`'s sum. -/
theorem block_sum (c : Dev nD) (t : Fin cfg0.N) :
    (∑ r : Fin 8192, ∑ l : Fin 128,
      wsq ((iblk m c 0 t : Vec Ideal S8192x128 .f32) (ix2 r l)) ((iblk m c 1 t : Vec Ideal S8192x128 .f32) (ix2 r l))
        (Ideal.cmp .one ((iblk m c 1 t : Vec Ideal S8192x128 .f32) (ix2 r l)) (Ideal.ofBits .f32 0x40A00000#32)))
      = bsum m c ⟨t.val, lt_of_lt_of_eq t.isLt N_0⟩ := by
  refine Finset.sum_congr rfl fun r _ => Finset.sum_congr rfl fun l _ => ?_
  rw [xblk_apply, tblk_apply]
  exact wsq_sitofp _ _

/-- Before the last point the output's staging buffer holds the running total: the first point stores the zero and
    adds its block's sum to it, every later one adds its block's sum to what the point before left. -/
theorem outs_running (c : Dev nD) : ∀ (n : ℕ) (hn : n < cfg0.N) (h31 : n < 31),
    outsAt0 m c n hn = fun _ => acc m c n (by omega)
  | 0, hn, _ => by
    refine (outsAt0_A m c ⟨0, hn⟩ rfl (by dsimp only; omega)).trans ?_
    refine (Pieces.out_A c _ _ _ _ _ _ _ _ _ (iblk m c 0 ⟨0, hn⟩) (iblk m c 1 ⟨0, hn⟩)).trans ?_
    funext j
    refine (Payload.pay2_apply (iblk m c 0 ⟨0, hn⟩) (iblk m c 1 ⟨0, hn⟩) _ j).trans ?_
    rw [Payload.pay1_apply, zero_add, block_sum]
    rfl
  | n + 1, hn, h31 => by
    have hB0 : ¬(⟨n + 1, hn⟩ : Fin cfg0.N).val % 32 = 0 := by dsimp only; omega
    have hB1 : ¬(⟨n + 1, hn⟩ : Fin cfg0.N).val % 32 = 31 := by dsimp only; omega
    refine (outsAt0_B m c ⟨n + 1, hn⟩ hB0 hB1).trans ?_
    refine (Pieces.out_B c _ _ _ _ _ _ _ _ _ (iblk m c 0 ⟨n + 1, hn⟩) (iblk m c 1 ⟨n + 1, hn⟩) _).trans ?_
    funext j
    refine (Payload.pay2_apply (iblk m c 0 ⟨n + 1, hn⟩) (iblk m c 1 ⟨n + 1, hn⟩) _ j).trans ?_
    rw [block_sum]
    show outsAt0 m c n _ j + _ = _
    rw [outs_running c n (Nat.lt_of_succ_lt hn) (by omega)]
    rfl

/-- The mean as the kernel leaves it: the sum over every block, scaled by `2^-25`. -/
def result (c : Dev nD) : EReal := (∑ t : Fin 32, bsum m c t) * Ideal.ofBits .f32 0x33000000#32

/-- After the last point the buffer holds the scaled total. -/
theorem outs_last (c : Dev nD) (hn : 31 < cfg0.N) : outsAt0 m c 31 hn = fun _ => result m c := by
  refine (outsAt0_C m c ⟨31, hn⟩ (by dsimp only; omega) rfl).trans ?_
  refine (Pieces.out_C c _ _ _ _ _ _ _ _ _ (iblk m c 0 ⟨31, hn⟩) (iblk m c 1 ⟨31, hn⟩) _).trans ?_
  funext j
  refine (Payload.pay3_apply _ j).trans ?_
  refine congrArg (· * Ideal.ofBits .f32 0x33000000#32) ?_
  refine (Payload.pay2_apply (iblk m c 0 ⟨31, hn⟩) (iblk m c 1 ⟨31, hn⟩) _ j).trans ?_
  rw [block_sum]
  show outsAt0 m c 30 _ j + _ = _
  rw [outs_running m c 30 (by omega) (by decide), ← acc_last]
  rfl

/-! ## The result array and the program's result -/

/-- The grid's last point. -/
abbrev tlast : Fin cfg0.N := ⟨31, by rw [show cfg0.N = 32 from N_0]; decide⟩

/-- The one write-back, at the last point, writes the scaled total: the output's one block is its whole array. -/
theorem flushed_eq (c : Dev nD) (t : Fin cfg0.N) (hf : (cfg0.win 2).flush t = true) :
    (dats m 0 c).flushed 2 t = ((cfg0.win 2).blk t).view.read (Elt Ideal) (fun _ => result m c) := by
  have hN : cfg0.N = 32 := N_0
  have h31 : t.val = 31 := by have := (flush0_2 t).mp hf; have := t.isLt; omega
  obtain rfl : t = tlast := Fin.ext h31
  show (cfg0.win 2).cut (grid0.coords tlast) ((dats m 0 c).after 2 tlast) = _
  rw [after0_2, outs_last]
  rfl

/-- So the result array ends holding the scaled total. -/
theorem final_o (c : Dev nD) : (dats m 0 c).arrAt 2 cfg0.N = fun _ => result m c :=
  (dats m 0 c).arrAt_eq_of_cover 2 (fun _ => result m c) (flushed_eq m c) fun i =>
    ⟨tlast, (flush0_2 tlast).mpr rfl, by
      show i ∈ ((View.whole main_v3).slice (win0_2.rect tlast)).set
      rw [View.set_slice_whole, Rect.mem_set_unit]
      intro a
      have h0 : (i 0 : Nat) < 1 := (i 0).isLt
      have h1 : (i 1 : Nat) < 1 := (i 1).isLt
      match a with
      | ⟨0, _⟩ => show win0_2.index tlast 0 * win0_2.size 0 ≤ (i 0 : Nat) ∧ (i 0 : Nat) < win0_2.index tlast 0 * win0_2.size 0 + win0_2.xsize (grid0.coords tlast) 0
                  rw [show win0_2.index tlast 0 * win0_2.size 0 = 0 from by decide +kernel, show win0_2.xsize (grid0.coords tlast) 0 = 1 from by decide +kernel]; omega
      | ⟨1, _⟩ => show win0_2.index tlast 1 * win0_2.size 1 ≤ (i 1 : Nat) ∧ (i 1 : Nat) < win0_2.index tlast 1 * win0_2.size 1 + win0_2.xsize (grid0.coords tlast) 1
                  rw [show win0_2.index tlast 1 * win0_2.size 1 = 0 from by decide +kernel, show win0_2.xsize (grid0.coords tlast) 1 = 1 from by decide +kernel]; omega⟩

/-- The host line after the region re-lays the one-element array as the scalar result. -/
theorem tail_eq (c : Dev nD) :
    Pipeline.afterTail₀ cfgs (dats m) 0 (V0 m) [hostOps1] c main_v4 = fun _ => result m c := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v3) = fun _ => result m c :=
    (Pipeline.withArrays_arr spec0 launch0.win.arr_inj c _ _ 2).trans (final_o m c)
  rw [hw]
  rfl

/-- The run, read: the program's result is the scaled total; the arguments end as launched. -/
theorem run : θ_run defs (onTc (τ := τ) (main (F := Ideal))) ⟨m, fun _ => 0, ρ⟩ fun r => ∀ c : Dev nD,
      r.2.mem ((c : Thread nD τ).loc main_v4) = (fun _ => result m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefSide.lean ====
/- The idealized reference read at an index: its elementwise product stage is the summand of that element's input and
   target, and its result is the sum of that stage over every flat position, from the zero, divided by `2^25`. -/
import proofs.«138641_j73538430042130_1_alg».proof.Proof.Gen.ReferenceIdeal.Run
import proofs.«138641_j73538430042130_1_alg».proof.Proof.Gen.ReferenceIdeal.Read
import proofs.«138641_j73538430042130_1_alg».proof.Proof.Summand
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Loss

/-- The reference's weighted squared difference, read at one element, is the summand of that element's input and
    target: the same window test, the label test on the integer, the target converted exactly. -/
theorem product_apply (x0 : (⟨S33554432, .f32⟩ : BufTy).Contents (Elt Ideal)) (x1 : (⟨S33554432, .i32⟩ : BufTy).Contents (Elt Ideal))
    (i : S33554432.Idx) : val_main_v12 (F := Ideal) x0 x1 i = term (x0 i) (x1 i) := by
  rw [val_main_v12_apply, val_main_v11_apply, val_main_v10_apply, val_main_v9_apply, val_main_v8_apply,
    val_main_v7_apply, val_main_v6_apply, val_main_v5_apply, val_main_c_apply, val_main_v4_apply, val_main_v1_apply,
    val_main_v3_apply, val_main_v0_apply, val_main_v2_apply, val_main_cst_apply, val_main_cst_0_apply,
    val_main_call0_v0_apply, val_main_call0_v1_apply, val_main_cst_1_apply, val_main_cst_2_apply]
  rfl

/-- The reference's mean: the total of the summand over every element, from the zero, divided by the count. -/
theorem mean_apply (x0 : (⟨S33554432, .f32⟩ : BufTy).Contents (Elt Ideal)) (x1 : (⟨S33554432, .i32⟩ : BufTy).Contents (Elt Ideal))
    (i : S_.Idx) :
    val_main_v14 (F := Ideal) x0 x1 i
      = Ideal.div (∑ j : S33554432.Idx, term (x0 j) (x1 j)) (Ideal.ofBits .f32 0x4C000000#32) := by
  rw [val_main_v14_apply, val_main_v13_apply, val_main_cst_3_apply, val_main_cst_4_apply]
  rw [Finset.sum_congr rfl fun j _ => product_apply x0 x1 j]
  refine Eq.trans (congrArg (fun z => Ideal.div (z + ∑ j, term (x0 j) (x1 j)) (Ideal.ofBits .f32 0x4C000000#32))
    Ideal.ofBits_zero_f32) ?_
  exact congrArg (Ideal.div · (Ideal.ofBits .f32 0x4C000000#32)) (zero_add _)

end Cert.ReferenceIdeal.RefValue

end
-- ==== Proof.lean ====
/- The penalized mean-squared-error loss: over 33554432 elements, the mean of `w · (x - t)²`, where the weight `w` is `3`
   for `x` strictly inside `(4.5, 5.5)` with target `t ≠ 5` and `1` elsewhere.

   The kernel walks the input as 32 blocks of 8192 rows by 128 lanes. At each block it sums the summand over the lanes of
   every row, then over the rows, and adds that block sum to a one-element accumulator that the first block resets to zero;
   after the last block it scales the accumulator by `2^-25`. It tests the label on the target already converted to a
   float. The reference sums the summand over the flat array from zero and divides by `2^25`, testing the label on the
   integer.

   Over the extended reals the two agree:
   * an integer converted exactly equals `5.0` only if it is `5`, so the two label tests give the same bit
     (Proof/Summand.lean `cmp_one_sitofp`);
   * block `t`, row `r`, lane `l` is flat position `(8192 t + r) · 128 + l`, and these triples enumerate the flat positions
     once each, so the sum over blocks of the sums over rows of the lane sums is the flat sum — addition of extended reals
     is commutative and associative, and no finiteness is used (`sum_flat`);
   * `2^-25` is an exact binary fraction, and dividing an extended real by `2^25` is multiplying it by `2^-25`
     (`scale_eq_div`).

   Proof/Pieces.lean reads what each of the body's three control cases leaves in the accumulator as its stores' payloads;
   Proof/Payload.lean reads the payloads at an index; Proof/KernelValue.lean carries the running total across the grid by
   induction on the point and reads the program's result after the closing host line; Proof/RefSide.lean reads the
   reference's stages at an index. The three frames are the generated ones (the reference's is its generated run with the
   result dropped); the idealization rewrote nothing, so `preserves` is trivial. -/
import proofs.«138641_j73538430042130_1_alg».proof.Defs
import proofs.«138641_j73538430042130_1_alg».proof.Proof.Gen.Kernel
import proofs.«138641_j73538430042130_1_alg».proof.Proof.Gen.Kernel.Frame
import proofs.«138641_j73538430042130_1_alg».proof.Proof.Gen.KernelIdeal
import proofs.«138641_j73538430042130_1_alg».proof.Proof.Gen.KernelIdeal.Frame
import proofs.«138641_j73538430042130_1_alg».proof.Proof.Gen.ReferenceIdeal
import proofs.«138641_j73538430042130_1_alg».proof.Proof.Gen.ReferenceIdeal.Run
import proofs.«138641_j73538430042130_1_alg».proof.Proof.Gen.ReferenceIdeal.Read
import proofs.«138641_j73538430042130_1_alg».proof.Proof.Gen.Pre_finite_inputs
import proofs.«138641_j73538430042130_1_alg».proof.Proof.KernelValue
import proofs.«138641_j73538430042130_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's scaled block-by-block total is the reference's flat total divided by the count. -/
theorem mean_eq (x : Cert.KernelIdeal.S33554432.Idx → EReal) (t : Cert.KernelIdeal.S33554432.Idx → BitVec 32) :
    (∑ b : Fin 32, ∑ r : Fin 8192, ∑ l : Fin 128,
        Cert.Loss.term (x (Cert.Loss.flat b r l)) (t (Cert.Loss.flat b r l))) * Ideal.ofBits .f32 0x33000000#32
      = Ideal.div (∑ j : Cert.KernelIdeal.S33554432.Idx, Cert.Loss.term (x j) (t j)) (Ideal.ofBits .f32 0x4C000000#32) := by
  rw [Cert.Loss.scale_eq_div, Cert.Loss.sum_flat fun j => Cert.Loss.term (x j) (t j)]

theorem algebraic : Cert.algebraic_KernelIdeal_ReferenceIdeal := by
  intro m ρ m' ρ' _ hagree
  refine ⟨fun c _ => Cert.KernelIdeal.KValue.result m c,
    (θ_run Cert.KernelIdeal.defs _ _).mono (fun _ h c => h c) (Cert.KernelIdeal.KValue.run m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  funext i
  rw [Cert.ReferenceIdeal.RefValue.mean_apply]
  exact (mean_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
